-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x4096x4096 .f32) (main_arg1 : FVec F S4096x4096 .f32) (main_arg2 : FVec F S16x4096 .f32) (main_arg3 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x4096x4096 : Shape := ⟨3, ![4, 4096, 4096]⟩
abbrev S4096x4096 : Shape := ⟨2, ![4096, 4096]⟩
abbrev S16x4096 : Shape := ⟨2, ![16, 4096]⟩
abbrev S4096x16 : Shape := ⟨2, ![4096, 16]⟩
abbrev S16384x4096 : Shape := ⟨2, ![16384, 4096]⟩
abbrev S1024x512 : Shape := ⟨2, ![1024, 512]⟩
abbrev S512x16 : Shape := ⟨2, ![512, 16]⟩
abbrev S16x1024 : Shape := ⟨2, ![16, 1024]⟩
abbrev S1024x1024 : Shape := ⟨2, ![1024, 1024]⟩
abbrev S1024x16 : Shape := ⟨2, ![1024, 16]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S16384x4096, .f32⟩
  | .hbm, ⟨5, _⟩ => ⟨S16384x4096, .f32⟩
  | .hbm, ⟨6, _⟩ => ⟨S4x4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x16, .f32⟩
  | .local _ .vmem, ⟨5, _⟩ => ⟨S512x16, .f32⟩
  | .local _ .vmem, ⟨6, _⟩ => ⟨S16x1024, .f32⟩
  | .local _ .vmem, ⟨7, _⟩ => ⟨S16x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x16, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x4096x4096_S16384x4096 : S4x4096x4096.ShapeCasts S16384x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S16x1024_S16x1024_0_0 : ∀ a, (![0, 0] : Fin 2 → Nat) a + S16x1024.size a ≤ S16x1024.size a
  h_S16x1024 : 0 < S16x1024.numel
  shapeCasts_S16384x4096_S4x4096x4096 : S16384x4096.ShapeCasts S4x4096x4096
  dot_S1024x512_S1024x512_S1024x1024_1_1_0_0_n_n_wf : DotDims.WF S1024x512 S1024x512 S1024x1024 [1] [1] [0] [0] [] []
  dot_S1024x512_S512x16_S1024x16_1_0_0_1_n_n_wf : DotDims.WF S1024x512 S512x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x4096.size a
  hwx0_4 : ∀ i : grid0.Coords, EltTy.bits .f32 = 32 ∨ (Rect.block (s := S16384x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S16x4096 : Shape := ⟨2, ![16, 4096]⟩
abbrev S4096x16 : Shape := ⟨2, ![4096, 16]⟩
abbrev S4x4096x16 : Shape := ⟨3, ![4, 4096, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4x4096x4096, .f32⟩
  | .hbm, ⟨5, _⟩ => ⟨S4x4096x16, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S4096x16_S4x4096x16_2_0_01_1_n_n_wf : DotDims.WF S4x4096x4096 S4096x16 S4x4096x16 [2] [0] [0, 1] [1] [] []
  dot_S4x4096x16_S16x4096_S4x4096x4096_2_0_01_1_n_n_wf : DotDims.WF S4x4096x16 S16x4096 S4x4096x4096 [2] [0] [0, 1] [1] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S4096x16_S4x4096x16_2_0_01_1_n_n : DotDims S4x4096x4096 S4096x16 S4x4096x16 where
  lhsContracting := [2]
  rhsContracting := [0]
  lhsNonContracting := [0, 1]
  rhsNonContracting := [1]
  lhsBatch := []
  rhsBatch := []
  wf := dot_S4x4096x4096_S4096x16_S4x4096x16_2_0_01_1_n_n_wf
def dot_S4x4096x16_S16x4096_S4x4096x4096_2_0_01_1_n_n : DotDims S4x4096x16 S16x4096 S4x4096x4096 where
  lhsContracting := [2]
  rhsContracting := [0]
  lhsNonContracting := [0, 1]
  rhsNonContracting := [1]
  lhsBatch := []
  rhsBatch := []
  wf := dot_S4x4096x16_S16x4096_S4x4096x4096_2_0_01_1_n_n_wf

class Facts : Prop extends Facts₀ where

variable [Facts]
-- ==== Proof.Pieces.lean ====
/-
  What one run of the kernel body leaves behind, case by case, as values.

  The body keeps two running sums in scratch memory: a [1024, 1024] block `acc` of the main product and a [1024, 16]
  block `xb` of the product with the first low-rank factor. At every grid point it adds to each the product of the point's
  input blocks; at the first point of a reduction run it first sets both to zero; at the last point it also writes
  `acc + 2 * (xb · a)` to the output block, with `acc` and `xb` as just updated. Below, each buffer's contents after the
  body are named as the body's own arithmetic terms (the update of `acc`, the update of `xb`, the output's value, the two
  zero blocks) of the input blocks and of what the scratch held before.
-/
import proofs.«173475_j24215025615346_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a reduction run: the main running sum is set to zero and the point's product added. -/
theorem acc_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond0_0 i) (hc1 : ¬cond0_1 i)
    (x0 : Vec F S1024x512 .f32) (x1 : Vec F S1024x512 .f32) (x2 : Vec F S512x16 .f32) (x3 : Vec F S16x1024 .f32) :
    sout0_A_0 c i arg3 harg3 arg4 harg4 arg5 harg5 arg6 harg6 arg7 harg7 arg8 harg8 arg9 harg9 hc0 hc1 x0 x1 x2 x3 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1024) hz]
  simp only [View.readAt_eq_ld, harg3.read_unread, harg4.read_unread, harg5.read_unread, harg6.read_unread, harg8.read_unread, harg9.read_unread, View.ld_unit_zero (S := S1024x512) hz, View.ld_unit_zero (S := S512x16) hz, View.ld_unit_zero (S := S16x1024) hz, View.ld_unit_zero (S := S1024x1024) hz, View.ld_unit_zero (S := S1024x16) hz, View.readCov_unit_zero (S := S1024x1024) _ hz, View.readCov_unit_zero (S := S1024x16) _ hz]

/-- First point of a reduction run: the low-rank running sum is set to zero and the point's product added. -/
theorem xb_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : cond0_0 i) (hc1 : ¬cond0_1 i)
    (x0 : Vec F S1024x512 .f32) (x1 : Vec F S1024x512 .f32) (x2 : Vec F S512x16 .f32) (x3 : Vec F S16x1024 .f32) :
    sout0_A_1 c i arg3 harg3 arg4 harg4 arg5 harg5 arg6 harg6 arg7 harg7 arg8 harg8 arg9 harg9 hc0 hc1 x0 x1 x2 x3 = k0_pay5 x0 x2 k0_pay2 := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x16) hz]
  simp only [View.readAt_eq_ld, harg3.read_unread, harg4.read_unread, harg5.read_unread, harg6.read_unread, harg8.read_unread, harg9.read_unread, View.ld_unit_zero (S := S1024x512) hz, View.ld_unit_zero (S := S512x16) hz, View.ld_unit_zero (S := S16x1024) hz, View.ld_unit_zero (S := S1024x1024) hz, View.ld_unit_zero (S := S1024x16) hz, View.readCov_unit_zero (S := S1024x1024) _ hz, View.readCov_unit_zero (S := S1024x16) _ hz]

/-- A middle point of a reduction run: the main running sum becomes itself plus the point's product. -/
theorem acc_mid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond0_0 i) (hc1 : ¬cond0_1 i)
    (x0 : Vec F S1024x512 .f32) (x1 : Vec F S1024x512 .f32) (x2 : Vec F S512x16 .f32) (x3 : Vec F S16x1024 .f32) (xs0 : Vec F S1024x1024 .f32) (xs1 : Vec F S1024x16 .f32) :
    sout0_B_0 c i arg3 harg3 arg4 harg4 arg5 harg5 arg6 harg6 arg7 harg7 arg8 harg8 arg9 harg9 hc0 hc1 x0 x1 x2 x3 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg5.read_unread, harg6.read_unread, harg8.read_unread, harg9.read_unread, View.ld_unit_zero (S := S1024x512) hz, View.ld_unit_zero (S := S512x16) hz, View.ld_unit_zero (S := S16x1024) hz, View.ld_unit_zero (S := S1024x1024) hz, View.ld_unit_zero (S := S1024x16) hz, View.readCov_unit_zero (S := S1024x1024) _ hz, View.readCov_unit_zero (S := S1024x16) _ hz]

/-- A middle point of a reduction run: the low-rank running sum becomes itself plus the point's product. -/
theorem xb_mid (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond0_0 i) (hc1 : ¬cond0_1 i)
    (x0 : Vec F S1024x512 .f32) (x1 : Vec F S1024x512 .f32) (x2 : Vec F S512x16 .f32) (x3 : Vec F S16x1024 .f32) (xs0 : Vec F S1024x1024 .f32) (xs1 : Vec F S1024x16 .f32) :
    sout0_B_1 c i arg3 harg3 arg4 harg4 arg5 harg5 arg6 harg6 arg7 harg7 arg8 harg8 arg9 harg9 hc0 hc1 x0 x1 x2 x3 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg5.read_unread, harg6.read_unread, harg8.read_unread, harg9.read_unread, View.ld_unit_zero (S := S1024x512) hz, View.ld_unit_zero (S := S512x16) hz, View.ld_unit_zero (S := S16x1024) hz, View.ld_unit_zero (S := S1024x1024) hz, View.ld_unit_zero (S := S1024x16) hz, View.readCov_unit_zero (S := S1024x1024) _ hz, View.readCov_unit_zero (S := S1024x16) _ hz]

/-- The last point of a reduction run updates the main running sum as a middle point does. -/
theorem acc_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond0_0 i) (hc1 : cond0_1 i)
    (x0 : Vec F S1024x512 .f32) (x1 : Vec F S1024x512 .f32) (x2 : Vec F S512x16 .f32) (x3 : Vec F S16x1024 .f32) (xs0 : Vec F S1024x1024 .f32) (xs1 : Vec F S1024x16 .f32) :
    sout0_C_0 c i arg3 harg3 arg4 harg4 arg5 harg5 arg6 harg6 arg7 harg7 arg8 harg8 arg9 harg9 hc0 hc1 x0 x1 x2 x3 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread, View.ld_unit_zero (S := S1024x512) hz, View.ld_unit_zero (S := S512x16) hz, View.ld_unit_zero (S := S16x1024) hz, View.ld_unit_zero (S := S1024x1024) hz, View.ld_unit_zero (S := S1024x16) hz, View.readCov_unit_zero (S := S1024x1024) _ hz, View.readCov_unit_zero (S := S1024x16) _ hz]

/-- The last point of a reduction run updates the low-rank running sum as a middle point does. -/
theorem xb_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond0_0 i) (hc1 : cond0_1 i)
    (x0 : Vec F S1024x512 .f32) (x1 : Vec F S1024x512 .f32) (x2 : Vec F S512x16 .f32) (x3 : Vec F S16x1024 .f32) (xs0 : Vec F S1024x1024 .f32) (xs1 : Vec F S1024x16 .f32) :
    sout0_C_1 c i arg3 harg3 arg4 harg4 arg5 harg5 arg6 harg6 arg7 harg7 arg8 harg8 arg9 harg9 hc0 hc1 x0 x1 x2 x3 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread, View.ld_unit_zero (S := S1024x512) hz, View.ld_unit_zero (S := S512x16) hz, View.ld_unit_zero (S := S16x1024) hz, View.ld_unit_zero (S := S1024x1024) hz, View.ld_unit_zero (S := S1024x16) hz, View.readCov_unit_zero (S := S1024x1024) _ hz, View.readCov_unit_zero (S := S1024x16) _ hz]

/-- The last point of a reduction run writes the output block: the updated main sum plus twice the product of the updated low-rank sum with the second low-rank factor's block. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S512x16 .f32) (harg5 : arg5.IsWhole) (arg6 : Memref sig .tc .vmem S16x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x16 .f32) (harg9 : arg9.IsWhole) (hc0 : ¬cond0_0 i) (hc1 : cond0_1 i)
    (x0 : Vec F S1024x512 .f32) (x1 : Vec F S1024x512 .f32) (x2 : Vec F S512x16 .f32) (x3 : Vec F S16x1024 .f32) (xs0 : Vec F S1024x1024 .f32) (xs1 : Vec F S1024x16 .f32) :
    out0_C_4 c i arg3 harg3 arg4 harg4 arg5 harg5 arg6 harg6 arg7 harg7 arg8 harg8 arg9 harg9 hc0 hc1 x0 x1 x2 x3 xs0 xs1 = k0_pay6 x3 (k0_pay5 x0 x2 xs1) (k0_pay4 x0 x1 xs0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread, harg8.read_unread, harg9.read_unread, View.ld_unit_zero (S := S1024x512) hz, View.ld_unit_zero (S := S512x16) hz, View.ld_unit_zero (S := S16x1024) hz, View.ld_unit_zero (S := S1024x1024) hz, View.ld_unit_zero (S := S1024x16) hz, View.readCov_unit_zero (S := S1024x1024) _ hz, View.readCov_unit_zero (S := S1024x16) _ hz]

end Cert.KernelIdeal.Pieces

end
-- ==== Proof.Steps.lean ====
/-
  The running sums and the output block, point by point, as the body's arithmetic.

  After the body at a point, the main running sum `acc`, the low-rank running sum `xb` and (at a last point) the output
  block are the body's terms of that point's input blocks and of the sums the point before left: at the first point of
  a reduction run each sum restarts from zero, at every other point it is updated from the point before, and at the last
  point the output is formed from the sums as just updated.
-/
import proofs.«173475_j24215025615346_1_alg».proof.Proof.Gen.KernelIdeal.Frame
import proofs.«173475_j24215025615346_1_alg».proof.Proof.Pieces
import Idealize.ShloMosaic.PureOps.Ideal

noncomputable section

open Idealize.ShloMosaic Idealize.ShloMosaic.TcCoe Idealize.SL.Sem

namespace Cert.KernelIdeal.Steps

open Cert.KernelIdeal Cert.KernelIdeal.Gen

variable (m : (ℓ : Loc nD τ sig) → Buf (Elt Ideal) ℓ)

/-- The four input blocks at a point, and the flattened `x`, the weight and the two low-rank factors they are cut from. -/
abbrev xblk (c : Dev nD) (t : Fin cfg0.N) : Vec Ideal S1024x512 .f32 := iblk m c 0 t
abbrev wblk (c : Dev nD) (t : Fin cfg0.N) : Vec Ideal S1024x512 .f32 := iblk m c 1 t
abbrev bblk (c : Dev nD) (t : Fin cfg0.N) : Vec Ideal S512x16 .f32 := iblk m c 2 t
abbrev ablk (c : Dev nD) (t : Fin cfg0.N) : Vec Ideal S16x1024 .f32 := iblk m c 3 t
abbrev xarr (c : Dev nD) : Vec Ideal S16384x4096 .f32 := V m c main_v0
abbrev warr (c : Dev nD) : Vec Ideal S4096x4096 .f32 := V m c main_arg1
abbrev aarr (c : Dev nD) : Vec Ideal S16x4096 .f32 := V m c main_arg2
abbrev barr (c : Dev nD) : Vec Ideal S4096x16 .f32 := V m c main_arg3

/-- What the output's staging buffer, the main running sum and the low-rank running sum hold after point `n`. -/
abbrev outAt (c : Dev nD) (n : ℕ) (h : n < cfg0.N) : Vec Ideal S1024x1024 .f32 := (outsAt0 m c n h).1
abbrev accAt (c : Dev nD) (n : ℕ) (h : n < cfg0.N) : Vec Ideal S1024x1024 .f32 := (outsAt0 m c n h).2.1
abbrev xbAt (c : Dev nD) (n : ℕ) (h : n < cfg0.N) : Vec Ideal S1024x16 .f32 := (outsAt0 m c n h).2.2

theorem pred_lt (t : Fin cfg0.N) : t.val - 1 < cfg0.N := Nat.lt_of_le_of_lt (Nat.sub_le _ _) t.isLt

/-- At the first point of a reduction run the main sum is zero plus the point's product. -/
theorem accAt_first (c : Dev nD) (t : Fin cfg0.N) (h0 : t.val % 8 = 0) :
    accAt m c t.val t.isLt = k0_pay4 (xblk m c t) (wblk m c t) (k0_pay1 (F := Ideal)) := by
  have h1 : ¬t.val % 8 = 7 := by omega
  show (outsAt0 m c t.val t.isLt).2.1 = _
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (xblk m c t) (wblk m c t) (bblk m c t) (ablk m c t)

/-- At the first point of a reduction run the low-rank sum is zero plus the point's product. -/
theorem xbAt_first (c : Dev nD) (t : Fin cfg0.N) (h0 : t.val % 8 = 0) :
    xbAt m c t.val t.isLt = k0_pay5 (xblk m c t) (bblk m c t) (k0_pay2 (F := Ideal)) := by
  have h1 : ¬t.val % 8 = 7 := by omega
  show (outsAt0 m c t.val t.isLt).2.2 = _
  rw [outsAt0_A m c t h0 h1]
  dsimp only
  exact Pieces.xb_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (xblk m c t) (wblk m c t) (bblk m c t) (ablk m c t)

/-- At every other point the main sum is the one the point before left plus the point's product. -/
theorem accAt_next (c : Dev nD) (t : Fin cfg0.N) (h0 : ¬t.val % 8 = 0) :
    accAt m c t.val t.isLt = k0_pay4 (xblk m c t) (wblk m c t) (accAt m c (t.val - 1) (pred_lt t)) := by
  show (outsAt0 m c t.val t.isLt).2.1 = _
  by_cases h1 : t.val % 8 = 7
  · rw [outsAt0_C m c t h0 h1]
    dsimp only
    exact Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (xblk m c t) (wblk m c t) (bblk m c t) (ablk m c t) (accAt m c (t.val - 1) (pred_lt t)) (xbAt m c (t.val - 1) (pred_lt t))
  · rw [outsAt0_B m c t h0 h1]
    dsimp only
    exact Pieces.acc_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (xblk m c t) (wblk m c t) (bblk m c t) (ablk m c t) (accAt m c (t.val - 1) (pred_lt t)) (xbAt m c (t.val - 1) (pred_lt t))

/-- At every other point the low-rank sum is the one the point before left plus the point's product. -/
theorem xbAt_next (c : Dev nD) (t : Fin cfg0.N) (h0 : ¬t.val % 8 = 0) :
    xbAt m c t.val t.isLt = k0_pay5 (xblk m c t) (bblk m c t) (xbAt m c (t.val - 1) (pred_lt t)) := by
  show (outsAt0 m c t.val t.isLt).2.2 = _
  by_cases h1 : t.val % 8 = 7
  · rw [outsAt0_C m c t h0 h1]
    dsimp only
    exact Pieces.xb_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (xblk m c t) (wblk m c t) (bblk m c t) (ablk m c t) (accAt m c (t.val - 1) (pred_lt t)) (xbAt m c (t.val - 1) (pred_lt t))
  · rw [outsAt0_B m c t h0 h1]
    dsimp only
    exact Pieces.xb_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (xblk m c t) (wblk m c t) (bblk m c t) (ablk m c t) (accAt m c (t.val - 1) (pred_lt t)) (xbAt m c (t.val - 1) (pred_lt t))

/-- At the last point of a reduction run the output block is formed from the two sums as that point leaves them. -/
theorem outAt_last (c : Dev nD) (t : Fin cfg0.N) (h1 : t.val % 8 = 7) :
    outAt m c t.val t.isLt = k0_pay6 (ablk m c t) (xbAt m c t.val t.isLt) (accAt m c t.val t.isLt) := by
  have h0 : ¬t.val % 8 = 0 := by omega
  rw [accAt_next m c t h0, xbAt_next m c t h0]
  show (outsAt0 m c t.val t.isLt).1 = _
  rw [outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (xblk m c t) (wblk m c t) (bblk m c t) (ablk m c t) (accAt m c (t.val - 1) (pred_lt t)) (xbAt m c (t.val - 1) (pred_lt t))

end Cert.KernelIdeal.Steps

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibDotRowsRows.lean ====
/-
  A matrix product of a matrix with the transpose of another, read at an entry (general in the sizes).

  For a left operand `[R, K]`, a right operand `[N, K]` and a result `[R, N]`, when both operands contract their
  second axis, neither has a batch axis, and the result's axes are the left operand's rows then the right operand's
  rows, the sum over the contraction index at the entry `(p, q)` is the sum over `k : Fin K` of
  `l (p, k) * r (q, k)`: row `p` of the left operand against row `q` of the right one. Stated once for any such
  record of dimension numbers, it reads a kernel's matrix product into a zero accumulator and a host's general dot
  product the same way.
-/
import Idealize.ShloMosaic.Lib.ValueIdx
import Idealize.ShloMosaic.PureOps.Ideal.Laws

open scoped BigOperators

namespace Idealize.ShloMosaic.DotRowsRows

open Idealize.ShloMosaic Idealize.ShloMosaic.ValueIdx

variable {R K N : ℕ}

/-- The dimension numbers of `[R, K] · [N, K]ᵀ → [R, N]`: each operand contracts its columns, no batch axes, the left
    operand's rows before the right operand's rows in the result. -/
structure IsRowsRows (d : DotDims (⟨2, ![R, K]⟩ : Shape) (⟨2, ![N, K]⟩ : Shape) (⟨2, ![R, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![R, K]⟩ : Shape) (⟨2, ![N, K]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsRowsRows d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsRowsRows d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the result's column. -/
theorem rhs_row (h : IsRowsRows d) (j : (⟨2, ![R, N]⟩ : Shape).Idx) (k : d.contr.Idx) :
    (d.rhsIdx j k (0 : Fin 2)).val = (j (1 : Fin 2)).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

/-- The right operand's column is the contraction coordinate. -/
theorem rhs_col (h : IsRowsRows d) (j : (⟨2, ![R, N]⟩ : Shape).Idx) (k : d.contr.Idx) :
    (d.rhsIdx j k (1 : Fin 2)).val = (k ⟨0, by rw [d.rank_contr, ← d.length_contracting, h.rc]; exact Nat.one_pos⟩).val :=
  d.rhsIdx_val_of_single h.rc j k

theorem contr_rank (h : IsRowsRows d) : d.contr.rank = 1 := by rw [d.rank_contr, h.lc]; rfl

theorem contr_size (h : IsRowsRows d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsRowsRows d) (l : (⟨2, ![R, K]⟩ : Shape).Idx → EReal) (r : (⟨2, ![N, K]⟩ : Shape).Idx → EReal)
    (p : Fin R) (q : Fin N) :
    ∑ k : d.contr.Idx, l (d.lhsIdx (ix2 p q) k) * r (d.rhsIdx (ix2 p q) k) = ∑ k : Fin K, l (ix2 p k) * r (ix2 q k) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 q k := by
    funext a
    refine Fin.ext ?_
    match a with
    | ⟨0, _⟩ => exact rhs_row h _ _
    | ⟨1, _⟩ => exact (rhs_col h _ _).trans (contrEquiv1_symm_val d K (contr_rank h) (contr_size h) k)
  rw [hl, hr]

/-- A kernel's matrix product into the zero accumulator, at the ideal values, read at `(p, q)`. -/
theorem matmul_zero_apply (h : IsRowsRows d) (prec : Option ContractPrecision)
    (l : FVec Ideal (⟨2, ![R, K]⟩ : Shape) .f32) (r : FVec Ideal (⟨2, ![N, K]⟩ : Shape) .f32) (p : Fin R) (q : Fin N) :
    FloatOps.matmul d prec l r (constant (⟨2, ![R, N]⟩ : Shape) .f32 0x00000000#32) (ix2 p q)
      = ∑ k : Fin K, l (ix2 p k) * r (ix2 q k) :=
  (Ideal.matmul_constant_zero_apply d prec l r (ix2 p q)).trans (sum_contr h l r p q)

/-- A host's general dot product, at the ideal values, read at `(p, q)`. -/
theorem dotGeneral_apply (h : IsRowsRows d) (prec : Option ContractPrecision) (sched : HostSchedule)
    (l : FVec Ideal (⟨2, ![R, K]⟩ : Shape) .f32) (r : FVec Ideal (⟨2, ![N, K]⟩ : Shape) .f32) (p : Fin R) (q : Fin N) :
    FloatOps.dotGeneral d prec sched l r (ix2 p q) = ∑ k : Fin K, l (ix2 p k) * r (ix2 q k) :=
  (Ideal.dotGeneral_apply d prec sched l r (ix2 p q)).trans (sum_contr h l r p q)

end Idealize.ShloMosaic.DotRowsRows
-- ==== Proof.Payload.lean ====
/-
  The body's arithmetic at one entry, over the extended reals.

  With a change of float format the identity, the update of the main running sum at entry `(p, q)` is the old entry
  plus the sum over the point's 512 contraction positions of `x (p, k) * w (q, k)` — row `p` of the `x` block against
  row `q` of the weight block —; the update of the low-rank running sum at `(p, r)` is the old entry plus the sum of
  `x (p, k) * b (k, r)`; the output's value at `(p, q)` is the main sum there plus `2` times the sum over the 16 ranks
  of `xb (p, r) * a (r, q)`; the two reset blocks are zero everywhere.
-/
import proofs.«173475_j24215025615346_1_alg».proof.Proof.Gen.KernelIdeal.Skeleton
import proofs.«173475_j24215025615346_1_alg».proof.Proof.LibPlainDot
import proofs.«173475_j24215025615346_1_alg».proof.Proof.LibDotRowsRows
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The main product's dimension numbers: both blocks contract their columns. -/
theorem rowsRows : DotRowsRows.IsRowsRows dot_S1024x512_S1024x512_S1024x1024_1_1_0_0_n_n := ⟨rfl, rfl, rfl, rfl, rfl, rfl⟩
/-- The first low-rank product's dimension numbers: the plain rows-by-columns product. -/
theorem plainB : PlainDot.IsPlain dot_S1024x512_S512x16_S1024x16_1_0_0_1_n_n := ⟨rfl, rfl, rfl, rfl, rfl, rfl⟩
/-- The second low-rank product's dimension numbers: the plain rows-by-columns product. -/
theorem plainA : PlainDot.IsPlain dot_S1024x16_S16x1024_S1024x1024_1_0_0_1_n_n := ⟨rfl, rfl, rfl, rfl, rfl, rfl⟩

/-- The block the main running sum is reset to is zero. -/
theorem accZero_apply (j : S1024x1024.Idx) : k0_pay1 (F := Ideal) j = 0 := by
  unfold k0_pay1
  simp only [shapeCast_self]
  exact Ideal.ofBits_zero_f32

/-- The block the low-rank running sum is reset to is zero. -/
theorem xbZero_apply (j : S1024x16.Idx) : k0_pay2 (F := Ideal) j = 0 := by
  unfold k0_pay2
  simp only [shapeCast_self]
  exact Ideal.ofBits_zero_f32

/-- The update of the main running sum at `(p, q)`. -/
theorem accStep_apply (x w : Vec Ideal S1024x512 .f32) (acc : Vec Ideal S1024x1024 .f32) (p q : Fin 1024) :
    k0_pay4 x w acc (ix2 p q) = acc (ix2 p q) + ∑ k : Fin 512, x (ix2 p k) * w (ix2 q k) := by
  unfold k0_pay4 k0_pay3
  dsimp only
  simp only [shapeCast_self]
  exact congrArg (acc (ix2 p q) + ·) (DotRowsRows.matmul_zero_apply rowsRows none x w p q)

/-- The update of the low-rank running sum at `(p, r)`. -/
theorem xbStep_apply (x : Vec Ideal S1024x512 .f32) (b : Vec Ideal S512x16 .f32) (xb : Vec Ideal S1024x16 .f32)
    (p : Fin 1024) (r : Fin 16) :
    k0_pay5 x b xb (ix2 p r) = xb (ix2 p r) + ∑ k : Fin 512, x (ix2 p k) * b (ix2 k r) := by
  unfold k0_pay5 k0_pay3
  dsimp only
  simp only [shapeCast_self]
  exact congrArg (xb (ix2 p r) + ·) (PlainDot.matmul_zero_apply plainB none x b p r)

/-- The output's value at `(p, q)`. -/
theorem out_apply (a : Vec Ideal S16x1024 .f32) (xb : Vec Ideal S1024x16 .f32) (acc : Vec Ideal S1024x1024 .f32)
    (p q : Fin 1024) :
    k0_pay6 a xb acc (ix2 p q)
      = acc (ix2 p q) + Ideal.ofBits .f32 0x40000000#32 * ∑ r : Fin 16, xb (ix2 p r) * a (ix2 r q) := by
  unfold k0_pay6
  exact congrArg (fun z => acc (ix2 p q) + Ideal.ofBits .f32 0x40000000#32 * z) (PlainDot.matmul_zero_apply plainA none xb a p q)

end Cert.KernelIdeal.Payload

end
-- ==== Proof.Blocks.lean ====
/-
  Where the blocks of the four inputs sit in their arrays.

  The grid has 16 x 4 x 8 points, the last axis fastest: point `t` works on row block `t / 32`, column block
  `t / 8 % 4` and reduction block `t % 8`. The `x` window's block there is rows `1024 * (t / 32) ...` and columns
  `512 * (t % 8) ...` of the flattened `x`; the weight window's is rows `1024 * (t / 8 % 4) ...`, the same columns; the
  first low-rank factor's is rows `512 * (t % 8) ...`, all 16 columns; the second low-rank factor's is all 16 rows,
  columns `1024 * (t / 8 % 4) ...`. Each lemma reads one entry of a block as the array's entry under it.
-/
import proofs.«173475_j24215025615346_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The grid has 512 points. -/
theorem lt_512 (t : Fin cfg0.N) : t.val < 512 := lt_of_lt_of_eq t.isLt (show cfg0.N = 512 from N_0)

/-- The block indices of the five windows at every point, decided over the grid. -/
theorem index_x : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem index_w : ∀ t : Fin cfg0.N, win0_1.index t 0 = t.val / 8 % 4 ∧ win0_1.index t 1 = t.val % 8 :=
  (by decide +kernel : ∀ t : Fin grid0.N, win0_1.index t 0 = t.val / 8 % 4 ∧ win0_1.index t 1 = t.val % 8)
theorem index_b : ∀ t : Fin cfg0.N, win0_2.index t 0 = t.val % 8 ∧ win0_2.index t 1 = 0 :=
  (by decide +kernel : ∀ t : Fin grid0.N, win0_2.index t 0 = t.val % 8 ∧ win0_2.index t 1 = 0)
theorem index_a : ∀ t : Fin cfg0.N, win0_3.index t 0 = 0 ∧ win0_3.index t 1 = t.val / 8 % 4 :=
  (by decide +kernel : ∀ t : Fin grid0.N, win0_3.index t 0 = 0 ∧ win0_3.index t 1 = t.val / 8 % 4)
theorem index_o : ∀ t : Fin cfg0.N, win0_4.index t 0 = t.val / 32 ∧ win0_4.index t 1 = t.val / 8 % 4 :=
  (by decide +kernel : ∀ t : Fin grid0.N, win0_4.index t 0 = t.val / 32 ∧ win0_4.index t 1 = t.val / 8 % 4)

/-- Entry `(p, k)` of the `x` block at point `t` is entry `(1024 * (t / 32) + p, 512 * (t % 8) + k)` of the flattened `x`. -/
theorem x_apply (c : Dev nD) (t : Fin cfg0.N) (p : Fin 1024) (k : Fin 512) (r : Fin 16384) (l : Fin 4096)
    (hr : r.val = 1024 * (t.val / 32) + p.val) (hl : l.val = 512 * (t.val % 8) + k.val) :
    (iblk m c 0 t : Vec F S1024x512 .f32) (ix2 p k) = (V m c main_v0 : Vec F S16384x4096 .f32) (ix2 r l) := by
  unfold iblk
  rw [View.read_apply]
  show V m c main_v0 _ = V m c main_v0 _
  refine congrArg (V m c main_v0) (funext fun a => Fin.ext ?_)
  match a with
  | ⟨0, _⟩ => show win0_0.index t 0 * 1024 + 1 * p.val = r.val; rw [(index_x t).1, hr]; omega
  | ⟨1, _⟩ => show win0_0.index t 1 * 512 + 1 * k.val = l.val; rw [(index_x t).2, hl]; omega

/-- Entry `(q, k)` of the weight block at point `t` is entry `(1024 * (t / 8 % 4) + q, 512 * (t % 8) + k)` of the weight. -/
theorem w_apply (c : Dev nD) (t : Fin cfg0.N) (q : Fin 1024) (k : Fin 512) (o : Fin 4096) (l : Fin 4096)
    (ho : o.val = 1024 * (t.val / 8 % 4) + q.val) (hl : l.val = 512 * (t.val % 8) + k.val) :
    (iblk m c 1 t : Vec F S1024x512 .f32) (ix2 q k) = (V m c main_arg1 : Vec F S4096x4096 .f32) (ix2 o l) := by
  unfold iblk
  rw [View.read_apply]
  show V m c main_arg1 _ = V m c main_arg1 _
  refine congrArg (V m c main_arg1) (funext fun a => Fin.ext ?_)
  match a with
  | ⟨0, _⟩ => show win0_1.index t 0 * 1024 + 1 * q.val = o.val; rw [(index_w t).1, ho]; omega
  | ⟨1, _⟩ => show win0_1.index t 1 * 512 + 1 * k.val = l.val; rw [(index_w t).2, hl]; omega

/-- Entry `(k, j)` of the first low-rank factor's block at point `t` is entry `(512 * (t % 8) + k, j)` of that factor. -/
theorem b_apply (c : Dev nD) (t : Fin cfg0.N) (k : Fin 512) (j : Fin 16) (l : Fin 4096)
    (hl : l.val = 512 * (t.val % 8) + k.val) :
    (iblk m c 2 t : Vec F S512x16 .f32) (ix2 k j) = (V m c main_arg3 : Vec F S4096x16 .f32) (ix2 l j) := by
  unfold iblk
  rw [View.read_apply]
  show V m c main_arg3 _ = V m c main_arg3 _
  refine congrArg (V m c main_arg3) (funext fun a => Fin.ext ?_)
  match a with
  | ⟨0, _⟩ => show win0_2.index t 0 * 512 + 1 * k.val = l.val; rw [(index_b t).1, hl]; omega
  | ⟨1, _⟩ => show win0_2.index t 1 * 16 + 1 * j.val = j.val; rw [(index_b t).2]; omega

/-- Entry `(j, q)` of the second low-rank factor's block at point `t` is entry `(j, 1024 * (t / 8 % 4) + q)` of that factor. -/
theorem a_apply (c : Dev nD) (t : Fin cfg0.N) (j : Fin 16) (q : Fin 1024) (o : Fin 4096)
    (ho : o.val = 1024 * (t.val / 8 % 4) + q.val) :
    (iblk m c 3 t : Vec F S16x1024 .f32) (ix2 j q) = (V m c main_arg2 : Vec F S16x4096 .f32) (ix2 j o) := by
  unfold iblk
  rw [View.read_apply]
  show V m c main_arg2 _ = V m c main_arg2 _
  refine congrArg (V m c main_arg2) (funext fun a => Fin.ext ?_)
  match a with
  | ⟨0, _⟩ => show win0_3.index t 0 * 16 + 1 * j.val = j.val; rw [(index_a t).1]; omega
  | ⟨1, _⟩ => show win0_3.index t 1 * 1024 + 1 * q.val = o.val; rw [(index_a t).2, ho]; omega

end Cert.KernelIdeal.Blocks

end
-- ==== Proof.Spec.lean ====
/-
  The function both programs compute.

  For a tall matrix `x` of 16384 rows and 4096 columns, a weight `w` of 4096 rows and 4096 columns, and two low-rank
  factors `b` (4096 x 16) and `a` (16 x 4096), the entry at row `r` and column `o` is

      sum over l of x (r, l) * w (o, l)  +  2 * sum over j of (sum over l of x (r, l) * b (l, j)) * a (j, o):

  the linear layer `x wᵀ` plus twice the low-rank correction `(x b) a`. The factor `2` is kept as the float word both
  programs print. Nothing below asks the entries to be finite: the two programs group the same sums differently, and
  addition of extended reals is commutative and associative at the infinities too.
-/
import Idealize.ShloMosaic.Lib.ValueIdx

noncomputable section

open scoped BigOperators

namespace Cert.Spec

open Idealize.ShloMosaic Idealize.ShloMosaic.ValueIdx

/-- The entry at row `r`, column `o`. -/
def entry (x : (⟨2, ![16384, 4096]⟩ : Shape).Idx → EReal) (w : (⟨2, ![4096, 4096]⟩ : Shape).Idx → EReal)
    (a : (⟨2, ![16, 4096]⟩ : Shape).Idx → EReal) (b : (⟨2, ![4096, 16]⟩ : Shape).Idx → EReal)
    (r : Fin 16384) (o : Fin 4096) : EReal :=
  (∑ l : Fin 4096, x (ix2 r l) * w (ix2 o l))
    + Ideal.ofBits .f32 0x40000000#32 * ∑ j : Fin 16, (∑ l : Fin 4096, x (ix2 r l) * b (ix2 l j)) * a (ix2 j o)

/-- The whole result as a 16384 x 4096 matrix. -/
def flat (x : (⟨2, ![16384, 4096]⟩ : Shape).Idx → EReal) (w : (⟨2, ![4096, 4096]⟩ : Shape).Idx → EReal)
    (a : (⟨2, ![16, 4096]⟩ : Shape).Idx → EReal) (b : (⟨2, ![4096, 16]⟩ : Shape).Idx → EReal) :
    (⟨2, ![16384, 4096]⟩ : Shape).Idx → EReal :=
  fun i => entry x w a b (i 0) (i 1)

theorem flat_apply (x : (⟨2, ![16384, 4096]⟩ : Shape).Idx → EReal) (w : (⟨2, ![4096, 4096]⟩ : Shape).Idx → EReal)
    (a : (⟨2, ![16, 4096]⟩ : Shape).Idx → EReal) (b : (⟨2, ![4096, 16]⟩ : Shape).Idx → EReal) (r : Fin 16384) (o : Fin 4096) :
    flat x w a b (ix2 r o) = entry x w a b r o := rfl

end Cert.Spec

end
-- ==== Proof.LibPartialSum.lean ====
/-
  Partial sums over the first positions of a finite range.

  `upto n k` is the set of positions `b : Fin n` with `b ≤ k`. In any commutative additive monoid the sum over
  `upto n 0` is the summand at position `0`, passing from `k` to `k + 1` adds the summand at position `k + 1`, and
  once `k` reaches the last position the sum is the sum over all positions. This is what an accumulator that adds one
  term per step holds after each step, stated without reference to any order of evaluation.
-/
import Mathlib.Algebra.BigOperators.Fin

open scoped BigOperators

namespace Cert.Lib.PartialSum

variable {M : Type*} [AddCommMonoid M] {n : ℕ}

/-- The positions up to and including `k`. -/
def upto (n k : ℕ) : Finset (Fin n) := Finset.univ.filter fun b => b.val ≤ k

theorem mem_upto {k : ℕ} {b : Fin n} : b ∈ upto n k ↔ b.val ≤ k := by
  simp [upto]

/-- Up to position `0` there is one summand. -/
theorem sum_upto_zero (hn : 0 < n) (g : Fin n → M) : ∑ b ∈ upto n 0, g b = g ⟨0, hn⟩ := by
  have : upto n 0 = {⟨0, hn⟩} := by
    ext b
    rw [mem_upto, Finset.mem_singleton]
    exact ⟨fun h => Fin.ext (Nat.le_zero.mp h), fun h => by rw [h]⟩
  rw [this, Finset.sum_singleton]

/-- One more position adds its summand. -/
theorem sum_upto_succ (k : ℕ) (hk : k + 1 < n) (g : Fin n → M) :
    ∑ b ∈ upto n (k + 1), g b = ∑ b ∈ upto n k, g b + g ⟨k + 1, hk⟩ := by
  have hins : upto n (k + 1) = insert ⟨k + 1, hk⟩ (upto n k) := by
    ext b
    rw [Finset.mem_insert, mem_upto, mem_upto]
    constructor
    · intro h
      rcases Nat.lt_or_ge b.val (k + 1) with h' | h'
      · exact Or.inr (Nat.lt_succ_iff.mp h')
      · exact Or.inl (Fin.ext (Nat.le_antisymm h h'))
    · rintro (h | h)
      · rw [h]
      · exact Nat.le_succ_of_le h
  have hnot : (⟨k + 1, hk⟩ : Fin n) ∉ upto n k := by
    rw [mem_upto]; exact Nat.not_succ_le_self k
  rw [hins, Finset.sum_insert hnot, add_comm]

/-- Up to the last position the sum is the whole sum. -/
theorem sum_upto_last (k : ℕ) (hk : n ≤ k + 1) (g : Fin n → M) : ∑ b ∈ upto n k, g b = ∑ b, g b := by
  have : upto n k = Finset.univ := by
    ext b
    rw [mem_upto]
    exact ⟨fun _ => Finset.mem_univ _, fun _ => Nat.lt_succ_iff.mp (Nat.lt_of_lt_of_le b.isLt hk)⟩
  rw [this]

end Cert.Lib.PartialSum
-- ==== Proof.LibBlockSum.lean ====
/-
  A finite sum taken block by block.

  `N = a * b` positions are cut into `a` consecutive blocks of `b` positions each: position `q` of block `t` is
  position `t * b + q` (`blockRow`). In any commutative additive monoid the sum of a function over all `N` positions is
  the sum, over the blocks, of its sums over each block's positions (`sum_fin_blocks`): the bijection
  `Fin a × Fin b ≃ Fin (a * b)`, `(t, q) ↦ q + b * t`. Applied twice it cuts the rows of a row-major matrix into row
  blocks and each row into its entries. Nothing is asked of the summands: on the extended reals, whose addition is
  commutative and associative at the infinities too, this re-groups a sum of any values. Generic in the sizes and in the
  monoid. Last, a reshape re-arranges a vector's entries bijectively, so it does not change their sum (`sum_shapeCast`).
-/
import Idealize.ShloMosaic.Lib.ValueIdx
import Mathlib.Algebra.BigOperators.Fin
import Mathlib.Logic.Equiv.Fin.Basic

open scoped BigOperators

namespace Cert.Lib.BlockSum

open Idealize.ShloMosaic Idealize.ShloMosaic.ValueIdx

/-- Row `q` of row block `t`, among the `N = a * b` rows: row `t * b + q`. -/
def blockRow {N a b : ℕ} (hN : N = a * b) (t : Fin a) (q : Fin b) : Fin N :=
  ⟨t.val * b + q.val, by
    subst hN
    calc t.val * b + q.val < t.val * b + b := Nat.add_lt_add_left q.isLt _
      _ = (t.val + 1) * b := (Nat.succ_mul _ _).symm
      _ ≤ a * b := Nat.mul_le_mul_right _ t.isLt⟩

@[simp] theorem blockRow_val {N a b : ℕ} (hN : N = a * b) (t : Fin a) (q : Fin b) :
    (blockRow hN t q).val = t.val * b + q.val := rfl

/-- A sum over `a * b` positions is the sum over the `a` blocks of the sums over each block's `b` positions. -/
theorem sum_fin_blocks {M : Type*} [AddCommMonoid M] {N a b : ℕ} (hN : N = a * b) (f : Fin N → M) :
    ∑ r, f r = ∑ t : Fin a, ∑ q : Fin b, f (blockRow hN t q) := by
  subst hN
  rw [← Equiv.sum_comp finProdFinEquiv f, Fintype.sum_prod_type]
  refine Finset.sum_congr rfl fun t _ => Finset.sum_congr rfl fun q _ => congrArg f (Fin.ext ?_)
  show q.val + b * t.val = t.val * b + q.val
  rw [Nat.mul_comm, Nat.add_comm]

/-- A reshape only re-arranges: the sum over a reshaped vector's entries is the sum over the vector's entries (each entry of
    the result is the operand's entry at the same row-major position, a bijection of the two index sets). -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

end Cert.Lib.BlockSum
-- ==== Proof.Sums.lean ====
/-
  The running sums are partial sums of the whole contraction, and the output block is the function both programs compute.

  Point `t` sits at reduction block `t % 8` of its run. By induction on the point, after it the main running sum at
  `(p, q)` is the sum, over the reduction blocks `0 .. t % 8` and the 512 columns of each, of
  `x (r, l) * w (o, l)`, where `r` and `o` are the rows of the flattened `x` and of the weight under `p` and `q`; the
  low-rank running sum at `(p, j)` is the same partial sum of `x (r, l) * b (l, j)`. A first point restarts from
  zero, so the sum has the one block; every other point adds its block to what the point before left. At the last point
  all eight blocks are in, the sums over blocks and columns are the sums over all 4096 columns, and the output entry is
  the specification's entry.
-/
import proofs.«173475_j24215025615346_1_alg».proof.Proof.Steps
import proofs.«173475_j24215025615346_1_alg».proof.Proof.Payload
import proofs.«173475_j24215025615346_1_alg».proof.Proof.Blocks
import proofs.«173475_j24215025615346_1_alg».proof.Proof.Spec
import proofs.«173475_j24215025615346_1_alg».proof.Proof.LibPartialSum
import proofs.«173475_j24215025615346_1_alg».proof.Proof.LibBlockSum

noncomputable section

open scoped BigOperators
open Idealize.ShloMosaic Idealize.ShloMosaic.TcCoe Idealize.SL.Sem Idealize.ShloMosaic.ValueIdx

namespace Cert.KernelIdeal.Sums

open Cert.KernelIdeal Cert.KernelIdeal.Gen Cert.KernelIdeal.Steps Cert.Lib.PartialSum Cert.Lib.BlockSum

variable (m : (ℓ : Loc nD τ sig) → Buf (Elt Ideal) ℓ)

/-- Column `b * 512 + k`: column `k` of reduction block `b`. -/
abbrev colOf (b : Fin 8) (k : Fin 512) : Fin 4096 := blockRow (show 4096 = 8 * 512 from rfl) b k

/-- The main product's partial sum over the reduction blocks `0 .. kk`. -/
def accUpTo (c : Dev nD) (r : Fin 16384) (o : Fin 4096) (kk : ℕ) : EReal :=
  ∑ b ∈ upto 8 kk, ∑ k : Fin 512, xarr m c (ix2 r (colOf b k)) * warr m c (ix2 o (colOf b k))

/-- The low-rank product's partial sum over the reduction blocks `0 .. kk`. -/
def xbUpTo (c : Dev nD) (r : Fin 16384) (j : Fin 16) (kk : ℕ) : EReal :=
  ∑ b ∈ upto 8 kk, ∑ k : Fin 512, xarr m c (ix2 r (colOf b k)) * barr m c (ix2 (colOf b k) j)

/-- The point's product of the `x` block with the weight block is reduction block `t % 8`'s share of the main sum. -/
theorem xw_term (c : Dev nD) (t : Fin cfg0.N) (p q : Fin 1024) (r : Fin 16384) (o : Fin 4096) (b : Fin 8)
    (hr : r.val = 1024 * (t.val / 32) + p.val) (ho : o.val = 1024 * (t.val / 8 % 4) + q.val) (hb : b.val = t.val % 8) :
    ∑ k : Fin 512, xblk m c t (ix2 p k) * wblk m c t (ix2 q k)
      = ∑ k : Fin 512, xarr m c (ix2 r (colOf b k)) * warr m c (ix2 o (colOf b k)) :=
  Finset.sum_congr rfl fun k _ => congrArg₂ (· * ·)
    (Blocks.x_apply m c t p k r (colOf b k) hr (by show b.val * 512 + k.val = _; rw [hb]; omega))
    (Blocks.w_apply m c t q k o (colOf b k) ho (by show b.val * 512 + k.val = _; rw [hb]; omega))

/-- The point's product of the `x` block with the first low-rank factor's block is block `t % 8`'s share of the low-rank sum. -/
theorem xb_term (c : Dev nD) (t : Fin cfg0.N) (p : Fin 1024) (j : Fin 16) (r : Fin 16384) (b : Fin 8)
    (hr : r.val = 1024 * (t.val / 32) + p.val) (hb : b.val = t.val % 8) :
    ∑ k : Fin 512, xblk m c t (ix2 p k) * bblk m c t (ix2 k j)
      = ∑ k : Fin 512, xarr m c (ix2 r (colOf b k)) * barr m c (ix2 (colOf b k) j) :=
  Finset.sum_congr rfl fun k _ => congrArg₂ (· * ·)
    (Blocks.x_apply m c t p k r (colOf b k) hr (by show b.val * 512 + k.val = _; rw [hb]; omega))
    (Blocks.b_apply m c t k j (colOf b k) (by show b.val * 512 + k.val = _; rw [hb]; omega))

/-- After a first point the main sum is its first block. -/
theorem acc_first_eq (c : Dev nD) (t : Fin cfg0.N) (h0 : t.val % 8 = 0) (p q : Fin 1024) (r : Fin 16384) (o : Fin 4096)
    (hr : r.val = 1024 * (t.val / 32) + p.val) (ho : o.val = 1024 * (t.val / 8 % 4) + q.val) :
    accAt m c t.val t.isLt (ix2 p q) = accUpTo m c r o 0 := by
  refine (congrFun (accAt_first m c t h0) (ix2 p q)).trans ?_
  refine (Payload.accStep_apply (xblk m c t) (wblk m c t) (k0_pay1 (F := Ideal)) p q).trans ?_
  rw [Payload.accZero_apply, zero_add]
  unfold accUpTo
  rw [sum_upto_zero (by decide)]
  exact xw_term m c t p q r o ⟨0, by decide⟩ hr ho h0.symm

/-- After a first point the low-rank sum is its first block. -/
theorem xb_first_eq (c : Dev nD) (t : Fin cfg0.N) (h0 : t.val % 8 = 0) (p : Fin 1024) (j : Fin 16) (r : Fin 16384)
    (hr : r.val = 1024 * (t.val / 32) + p.val) :
    xbAt m c t.val t.isLt (ix2 p j) = xbUpTo m c r j 0 := by
  refine (congrFun (xbAt_first m c t h0) (ix2 p j)).trans ?_
  refine (Payload.xbStep_apply (xblk m c t) (bblk m c t) (k0_pay2 (F := Ideal)) p j).trans ?_
  rw [Payload.xbZero_apply, zero_add]
  unfold xbUpTo
  rw [sum_upto_zero (by decide)]
  exact xb_term m c t p j r ⟨0, by decide⟩ hr h0.symm

/-- After every point the main sum is the partial sum up to the point's reduction block. -/
theorem acc_eq (c : Dev nD) : ∀ (n : ℕ) (h : n < cfg0.N) (p q : Fin 1024) (r : Fin 16384) (o : Fin 4096),
    r.val = 1024 * (n / 32) + p.val → o.val = 1024 * (n / 8 % 4) + q.val →
    accAt m c n h (ix2 p q) = accUpTo m c r o (n % 8) := by
  intro n
  induction n with
  | zero =>
    intro h p q r o hr ho
    exact acc_first_eq m c ⟨0, h⟩ rfl p q r o hr ho
  | succ n ih =>
    intro h p q r o hr ho
    have hN : n + 1 < 512 := lt_of_lt_of_eq h N_0
    by_cases h0 : (n + 1) % 8 = 0
    · rw [h0]
      exact acc_first_eq m c ⟨n + 1, h⟩ h0 p q r o hr ho
    · have hlt : (n + 1) % 8 < 8 := Nat.mod_lt _ (by decide)
      obtain ⟨kk, hk⟩ : ∃ kk, (n + 1) % 8 = kk + 1 := ⟨(n + 1) % 8 - 1, by omega⟩
      have hprev := ih (Nat.lt_of_succ_lt h) p q r o (by omega) (by omega)
      rw [show n % 8 = kk from by omega] at hprev
      rw [hk]
      refine (congrFun (accAt_next m c ⟨n + 1, h⟩ h0) (ix2 p q)).trans ?_
      refine (Payload.accStep_apply (xblk m c ⟨n + 1, h⟩) (wblk m c ⟨n + 1, h⟩) (accAt m c n (Nat.lt_of_succ_lt h)) p q).trans ?_
      rw [hprev]
      unfold accUpTo
      rw [sum_upto_succ kk (by omega)]
      exact congrArg (_ + ·) (xw_term m c ⟨n + 1, h⟩ p q r o ⟨kk + 1, by omega⟩ hr ho hk.symm)

/-- After every point the low-rank sum is the partial sum up to the point's reduction block. -/
theorem xb_eq (c : Dev nD) : ∀ (n : ℕ) (h : n < cfg0.N) (p : Fin 1024) (j : Fin 16) (r : Fin 16384),
    r.val = 1024 * (n / 32) + p.val → xbAt m c n h (ix2 p j) = xbUpTo m c r j (n % 8) := by
  intro n
  induction n with
  | zero =>
    intro h p j r hr
    exact xb_first_eq m c ⟨0, h⟩ rfl p j r hr
  | succ n ih =>
    intro h p j r hr
    have hN : n + 1 < 512 := lt_of_lt_of_eq h N_0
    by_cases h0 : (n + 1) % 8 = 0
    · rw [h0]
      exact xb_first_eq m c ⟨n + 1, h⟩ h0 p j r hr
    · have hlt : (n + 1) % 8 < 8 := Nat.mod_lt _ (by decide)
      obtain ⟨kk, hk⟩ : ∃ kk, (n + 1) % 8 = kk + 1 := ⟨(n + 1) % 8 - 1, by omega⟩
      have hprev := ih (Nat.lt_of_succ_lt h) p j r (by omega)
      rw [show n % 8 = kk from by omega] at hprev
      rw [hk]
      refine (congrFun (xbAt_next m c ⟨n + 1, h⟩ h0) (ix2 p j)).trans ?_
      refine (Payload.xbStep_apply (xblk m c ⟨n + 1, h⟩) (bblk m c ⟨n + 1, h⟩) (xbAt m c n (Nat.lt_of_succ_lt h)) p j).trans ?_
      rw [hprev]
      unfold xbUpTo
      rw [sum_upto_succ kk (by omega)]
      exact congrArg (_ + ·) (xb_term m c ⟨n + 1, h⟩ p j r ⟨kk + 1, by omega⟩ hr hk.symm)

/-- At a last point the output block's entry is the specification's. -/
theorem out_eq (c : Dev nD) (t : Fin cfg0.N) (h1 : t.val % 8 = 7) (p q : Fin 1024) (r : Fin 16384) (o : Fin 4096)
    (hr : r.val = 1024 * (t.val / 32) + p.val) (ho : o.val = 1024 * (t.val / 8 % 4) + q.val) :
    outAt m c t.val t.isLt (ix2 p q) = Spec.entry (xarr m c) (warr m c) (aarr m c) (barr m c) r o := by
  refine (congrFun (outAt_last m c t h1) (ix2 p q)).trans ?_
  refine (Payload.out_apply (ablk m c t) (xbAt m c t.val t.isLt) (accAt m c t.val t.isLt) p q).trans ?_
  unfold Spec.entry
  refine congrArg₂ (· + ·) ?_ (congrArg (Ideal.ofBits .f32 0x40000000#32 * ·)
    (Finset.sum_congr rfl fun j _ => congrArg₂ (· * ·) ?_ ?_))
  · rw [acc_eq m c t.val t.isLt p q r o hr ho, h1]
    unfold accUpTo
    rw [sum_upto_last 7 (by decide)]
    exact (sum_fin_blocks (show 4096 = 8 * 512 from rfl) fun l => xarr m c (ix2 r l) * warr m c (ix2 o l)).symm
  · rw [xb_eq m c t.val t.isLt p j r hr, h1]
    unfold xbUpTo
    rw [sum_upto_last 7 (by decide)]
    exact (sum_fin_blocks (show 4096 = 8 * 512 from rfl) fun l => xarr m c (ix2 r l) * barr m c (ix2 l j)).symm
  · exact Blocks.a_apply m c t j q o ho

end Cert.KernelIdeal.Sums

end
-- ==== Proof.Final.lean ====
/-
  The kernel program's result array.

  The output window's block at point `t` is rows `1024 * (t / 32) ...` and columns `1024 * (t / 8 % 4) ...` of the
  flattened result, and it is written back at the last point of each reduction run, where it holds the specification's
  entries. Every entry `(r, o)` of the flattened result lies in the block of the last point of run
  `(r / 1024, o / 1024)`, so after the region the flattened result is the specification of the arrays the region found:
  the flattened `x` (the host's reshape of the argument), the weight and the two low-rank factors. The host's last
  reshape unflattens it.
-/
import proofs.«173475_j24215025615346_1_alg».proof.Proof.Sums
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Steps

variable (m : (ℓ : Loc nD τ sig) → Buf (Elt Ideal) ℓ) (ρ : Dev nD → PrngReg)

/-- The specification of the arrays the region finds. -/
abbrev flatResult (c : Dev nD) : Vec Ideal S16384x4096 .f32 := Spec.flat (xarr m c) (warr m c) (aarr m c) (barr m c)

/-- What a last point writes back is its block of the specification. -/
theorem flushed_eq (c : Dev nD) (t : Fin cfg0.N) (hf : (cfg0.win 4).flush t = true) :
    (dats m 0 c).flushed 4 t = ((cfg0.win 4).blk t).view.read (Elt Ideal) (flatResult m c) := by
  have h1 : t.val % 8 = 7 := (flush0_4 t).mp hf
  have hN := Blocks.lt_512 t
  show (cfg0.win 4).cut (grid0.coords t) ((dats m 0 c).after 4 t) = _
  rw [after0_4]
  funext y
  obtain ⟨p, q, rfl⟩ : ∃ (p q : Fin 1024), y = ix2 p q := ⟨y 0, y 1, eq_ix2 y⟩
  rw [View.read_apply]
  have he : ((cfg0.win 4).blk t).view.emb (ix2 p q)
      = ix2 (⟨1024 * (t.val / 32) + p.val, by omega⟩ : Fin 16384) (⟨1024 * (t.val / 8 % 4) + q.val, by omega⟩ : Fin 4096) := by
    funext a
    apply Fin.ext
    match a with
    | ⟨0, _⟩ => show win0_4.index t 0 * 1024 + 1 * p.val = 1024 * (t.val / 32) + p.val; rw [(Blocks.index_o t).1]; omega
    | ⟨1, _⟩ => show win0_4.index t 1 * 1024 + 1 * q.val = 1024 * (t.val / 8 % 4) + q.val; rw [(Blocks.index_o t).2]; omega
  rw [he]
  exact Sums.out_eq m c t h1 p q _ _ rfl rfl

/-- Every entry of the flattened result is in the block some last point writes back. -/
theorem covered (i : S16384x4096.Idx) :
    ∃ t : Fin cfg0.N, (cfg0.win 4).flush t = true ∧ i ∈ ((cfg0.win 4).blk t).view.set := by
  have h0 : (i 0).val < 16384 := (i 0).isLt
  have h1 : (i 1).val < 4096 := (i 1).isLt
  have hN : cfg0.N = 512 := N_0
  let t : Fin cfg0.N := ⟨32 * ((i 0).val / 1024) + 8 * ((i 1).val / 1024) + 7, by omega⟩
  have ht : t.val = 32 * ((i 0).val / 1024) + 8 * ((i 1).val / 1024) + 7 := rfl
  refine ⟨t, (flush0_4 t).mpr (by omega), ?_⟩
  show i ∈ ((View.whole main_v1).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [(Blocks.index_o t).1]; omega
  | ⟨1, _⟩ =>
    show win0_4.index t 1 * 1024 ≤ (i 1).val ∧ (i 1).val < win0_4.index t 1 * 1024 + 1024
    rw [(Blocks.index_o t).2]; omega

/-- After the region the flattened result is the specification of the arrays the region found. -/
theorem final (c : Dev nD) : (dats m 0 c).arrAt 4 cfg0.N = flatResult m c :=
  (dats m 0 c).arrAt_eq_of_cover 4 (flatResult m c) (flushed_eq m c) (covered)

/-- The flattened `x` the region finds is the host's reshape of the argument. -/
theorem xarr_eq (c : Dev nD) :
    xarr m c = shapeCast S16384x4096 (m ((c : Thread nD τ).loc main_arg0)) shapeCasts_S4x4096x4096_S16384x4096 := by
  show StableHlo.after hostOps0 (fun b => m (c, b)) (Proc.devRef .tc main_v0) = _
  after_results
  rfl

/-- The program's result: the host's last reshape of the flattened result. -/
theorem tail_eq (c : Dev nD) :
    Pipeline.afterTail₀ cfgs (dats m) 0 (V0 m) [hostOps1] c main_v2
      = shapeCast S4x4096x4096 (flatResult m c) shapeCasts_S16384x4096_S4x4096x4096 := by
  unfold Pipeline.afterTail₀
  show StableHlo.after hostOps1 _ (Proc.devRef .tc main_v2) = _
  after_results
  exact congrArg (fun y => shapeCast S4x4096x4096 y shapeCasts_S16384x4096_S4x4096x4096)
    ((Pipeline.withArrays_arr spec0 launch0.win.arr_inj c _ _ 4).trans (final m c))

/-- The result as a function of the arguments alone. -/
abbrev result (c : Dev nD) : Buf (Elt Ideal) ((c : Thread nD τ).loc main_v2) :=
  shapeCast S4x4096x4096
    (Spec.flat (shapeCast S16384x4096 (m ((c : Thread nD τ).loc main_arg0)) shapeCasts_S4x4096x4096_S16384x4096)
      (m ((c : Thread nD τ).loc main_arg1)) (m ((c : Thread nD τ).loc main_arg2)) (m ((c : Thread nD τ).loc main_arg3)))
    shapeCasts_S16384x4096_S4x4096x4096

theorem flatResult_eq (c : Dev nD) : flatResult m c
    = Spec.flat (shapeCast S16384x4096 (m ((c : Thread nD τ).loc main_arg0)) shapeCasts_S4x4096x4096_S16384x4096)
      (m ((c : Thread nD τ).loc main_arg1)) (m ((c : Thread nD τ).loc main_arg2)) (m ((c : Thread nD τ).loc main_arg3)) := by
  show Spec.flat (xarr m c) (V m c main_arg1) (V m c main_arg2) (V m c main_arg3) = _
  rw [xarr_eq, V_main_arg1, V_main_arg2, V_main_arg3]

/-- The run, read: the result at the unflattened specification of the arguments, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans
        ((tail_eq m c).trans (congrArg (fun y => shapeCast S4x4096x4096 y shapeCasts_S16384x4096_S4x4096x4096) (flatResult_eq m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c)))⟩)
    (run_main m ρ)

end Cert.KernelIdeal.Value

end
-- ==== Proof.LibMergeLeading.lean ====
/-
  Merging the two leading axes of a rank-3 array, and splitting them again, read at an index (general in the sizes).

  A reshape `[a, b, c] → [a * b, c]` keeps every entry at its row-major position, so the entry at row `p * b + q`
  and column `r` of the result is the operand's entry `(p, q, r)` (`merge_apply`); the reshape back
  `[a * b, c] → [a, b, c]` reads entry `(p, q, r)` from row `p * b + q`, column `r` (`split_apply`). The merged
  row is `mergedRow`. This is what flattening a batch of matrices into one tall matrix, and unflattening the result,
  print.
-/
import Idealize.ShloMosaic.Lib.ValueIdx
import Idealize.ShloMosaic.Lib.Pipeline.Value

namespace Cert.Lib.MergeLeading

open Idealize.ShloMosaic Idealize.ShloMosaic.ValueIdx

variable {a b c n : ℕ} {α : Type}

/-- Row `p * b + q` of the merged array. -/
def mergedRow (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right _ p.isLt⟩

@[simp] theorem mergedRow_val (hn : n = a * b) (p : Fin a) (q : Fin b) : (mergedRow hn p q).val = p.val * b + q.val := rfl

/-- The merged array at row `p * b + q`, column `r`, is the operand at `(p, q, r)`. -/
theorem merge_apply (hn : n = a * b) (x : (⟨3, ![a, b, c]⟩ : Shape).Idx → α)
    (h : (⟨3, ![a, b, c]⟩ : Shape).ShapeCasts (⟨2, ![n, c]⟩ : Shape)) (p : Fin a) (q : Fin b) (r : Fin c) :
    shapeCast (⟨2, ![n, c]⟩ : Shape) x h (ix2 (mergedRow hn p q) r) = x (ix3 p q r) := by
  refine shapeCast_apply x h _ _ ?_
  rw [Shape.rowMajor_val_three, Shape.rowMajor_val_two]
  rfl

/-- The split array at `(p, q, r)` is the operand at row `p * b + q`, column `r`. -/
theorem split_apply (hn : n = a * b) (y : (⟨2, ![n, c]⟩ : Shape).Idx → α)
    (h : (⟨2, ![n, c]⟩ : Shape).ShapeCasts (⟨3, ![a, b, c]⟩ : Shape)) (p : Fin a) (q : Fin b) (r : Fin c) :
    shapeCast (⟨3, ![a, b, c]⟩ : Shape) y h (ix3 p q r) = y (ix2 (mergedRow hn p q) r) := by
  refine shapeCast_apply y h _ _ ?_
  rw [Shape.rowMajor_val_three, Shape.rowMajor_val_two]
  rfl

end Cert.Lib.MergeLeading
-- ==== Proof.RefSide.lean ====
/-
  The reference computes the specification.

  The reference contracts the rank-3 `x` directly: its result at `(s, t, o)` is the sum over `l` of
  `x (s, t, l) * w (o, l)` plus `2` times the sum over `j` of `(sum over l of x (s, t, l) * b (l, j)) * a (j, o)`.
  Flattening the two leading axes of `x` puts entry `(s, t, l)` at row `s * 4096 + t`, column `l`, and unflattening
  the specification's matrix reads entry `(s, t, o)` from that same row; so the reference's result is the unflattened
  specification of the flattened `x`, entry by entry, with no arithmetic beyond naming the indices.
-/
import proofs.«173475_j24215025615346_1_alg».proof.Proof.Gen.ReferenceIdeal.Read
import proofs.«173475_j24215025615346_1_alg».proof.Proof.Spec
import proofs.«173475_j24215025615346_1_alg».proof.Proof.LibMergeLeading

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Lib.MergeLeading

theorem lidx_v0 (s : Fin 4) (t o l : Fin 4096) : lidx_main_v0 (ix3 s t o) l = ix3 s t l :=
  funext fun a => Fin.ext (by match a with | ⟨0, _⟩ => rfl | ⟨1, _⟩ => rfl | ⟨2, _⟩ => rfl)
theorem ridx_v0 (s : Fin 4) (t o l : Fin 4096) : ridx_main_v0 (ix3 s t o) l = ix2 o l :=
  funext fun a => Fin.ext (by match a with | ⟨0, _⟩ => rfl | ⟨1, _⟩ => rfl)
theorem lidx_v1 (s : Fin 4) (t : Fin 4096) (j : Fin 16) (l : Fin 4096) : lidx_main_v1 (ix3 s t j) l = ix3 s t l :=
  funext fun a => Fin.ext (by match a with | ⟨0, _⟩ => rfl | ⟨1, _⟩ => rfl | ⟨2, _⟩ => rfl)
theorem ridx_v1 (s : Fin 4) (t : Fin 4096) (j : Fin 16) (l : Fin 4096) : ridx_main_v1 (ix3 s t j) l = ix2 l j :=
  funext fun a => Fin.ext (by match a with | ⟨0, _⟩ => rfl | ⟨1, _⟩ => rfl)
theorem lidx_v2 (s : Fin 4) (t o : Fin 4096) (j : Fin 16) : lidx_main_v2 (ix3 s t o) j = ix3 s t j :=
  funext fun a => Fin.ext (by match a with | ⟨0, _⟩ => rfl | ⟨1, _⟩ => rfl | ⟨2, _⟩ => rfl)
theorem ridx_v2 (s : Fin 4) (t o : Fin 4096) (j : Fin 16) : ridx_main_v2 (ix3 s t o) j = ix2 j o :=
  funext fun a => Fin.ext (by match a with | ⟨0, _⟩ => rfl | ⟨1, _⟩ => rfl)

/-- The reference's result is the specification of the flattened `x`, unflattened. -/
theorem result_eq (x0 : (⟨S4x4096x4096, .f32⟩ : BufTy).Contents (Elt Ideal)) (x1 : (⟨S4096x4096, .f32⟩ : BufTy).Contents (Elt Ideal))
    (x2 : (⟨S16x4096, .f32⟩ : BufTy).Contents (Elt Ideal)) (x3 : (⟨S4096x16, .f32⟩ : BufTy).Contents (Elt Ideal))
    (h1 : S4x4096x4096.ShapeCasts (⟨2, ![16384, 4096]⟩ : Shape)) (h2 : (⟨2, ![16384, 4096]⟩ : Shape).ShapeCasts S4x4096x4096) :
    val_main_v5 (F := Ideal) x0 x1 x2 x3
      = shapeCast S4x4096x4096 (Spec.flat (shapeCast (⟨2, ![16384, 4096]⟩ : Shape) x0 h1) x1 x2 x3) h2 := by
  funext i
  obtain ⟨s, t, o, rfl⟩ : ∃ (s : Fin 4) (t o : Fin 4096), i = ix3 s t o := ⟨i 0, i 1, i 2, eq_ix3 i⟩
  rw [split_apply (show 16384 = 4 * 4096 from rfl) _ h2 s t o, Spec.flat_apply]
  unfold Spec.entry
  rw [val_main_v5_apply, val_main_v0_apply, val_main_v4_apply, val_main_v3_apply, val_main_cst_apply, val_main_v2_apply]
  simp only [Ideal.addf_def, Ideal.mulf_def, Ideal.ofBits_def]
  refine congrArg₂ (· + ·) (Finset.sum_congr rfl fun l _ => congrArg₂ (· * ·) ?_ ?_)
    (congrArg (Ideal.ofBits .f32 0x40000000#32 * ·) (Finset.sum_congr rfl fun j _ => congrArg₂ (· * ·) ?_ ?_))
  · rw [lidx_v0]
    exact (merge_apply (show 16384 = 4 * 4096 from rfl) x0 h1 s t l).symm
  · rw [ridx_v0]
  · rw [lidx_v2, val_main_v1_apply]
    refine Finset.sum_congr rfl fun l _ => congrArg₂ (· * ·) ?_ ?_
    · rw [lidx_v1]
      exact (merge_apply (show 16384 = 4 * 4096 from rfl) x0 h1 s t l).symm
    · rw [ridx_v1]
  · rw [ridx_v2]

end Cert.ReferenceIdeal.RefValue

end
-- ==== Proof.lean ====
/-
  A linear layer with a low-rank correction, tiled over a 16 x 4 x 8 grid, against its whole-array reference.

  Both programs compute, for `x` of shape [4, 4096, 4096], a weight `w` [4096, 4096] and low-rank factors
  `b` [4096, 16], `a` [16, 4096], the array whose entry `(s, t, o)` is

      sum over l of x (s, t, l) * w (o, l)  +  2 * sum over j of (sum over l of x (s, t, l) * b (l, j)) * a (j, o).

  The kernel flattens `x` to 16384 rows, cuts the 4096 contraction columns into eight blocks of 512 and keeps two
  running sums per output tile, one of the main product and one of `x b`; each starts from zero at the first
  block, adds one block's products per grid point, and at the eighth block the output tile is the main sum plus
  twice the product of the low-rank sum with `a`'s tile. The reference takes the three contractions whole. Over the
  extended reals a change of float format is the identity, the matrix unit's product is the plain sum of products,
  and regrouping a sum by blocks uses only commutativity and associativity of addition, which hold at the
  infinities too; so the two results agree entry by entry and the inputs' finiteness is never used. The ideal
  pass rewrote nothing, so the kernel's idealization is the kernel's own text.
-/
import proofs.«173475_j24215025615346_1_alg».proof.Defs
import proofs.«173475_j24215025615346_1_alg».proof.Proof.Gen.Kernel
import proofs.«173475_j24215025615346_1_alg».proof.Proof.Gen.Kernel.Skeleton
import proofs.«173475_j24215025615346_1_alg».proof.Proof.Gen.Kernel.Launch
import proofs.«173475_j24215025615346_1_alg».proof.Proof.Gen.Kernel.Points
import proofs.«173475_j24215025615346_1_alg».proof.Proof.Gen.Kernel.Frame
import proofs.«173475_j24215025615346_1_alg».proof.Proof.Gen.KernelIdeal
import proofs.«173475_j24215025615346_1_alg».proof.Proof.Gen.KernelIdeal.Skeleton
import proofs.«173475_j24215025615346_1_alg».proof.Proof.Gen.KernelIdeal.Launch
import proofs.«173475_j24215025615346_1_alg».proof.Proof.Gen.KernelIdeal.Points
import proofs.«173475_j24215025615346_1_alg».proof.Proof.Gen.KernelIdeal.Frame
import proofs.«173475_j24215025615346_1_alg».proof.Proof.Gen.ReferenceIdeal
import proofs.«173475_j24215025615346_1_alg».proof.Proof.Gen.Pre_finite_inputs
import proofs.«173475_j24215025615346_1_alg».proof.Proof.Gen.ReferenceIdeal.Run
import proofs.«173475_j24215025615346_1_alg».proof.Proof.Gen.ReferenceIdeal.Read
import proofs.«173475_j24215025615346_1_alg».proof.Proof.Final
import proofs.«173475_j24215025615346_1_alg».proof.Proof.RefSide
import Idealize.ShloMosaic.Adequacy
import Idealize.ShloMosaic.Init

noncomputable section

namespace Cert.Proof

open Idealize.ShloMosaic Idealize.SL.Sem

/-- The word-level kernel runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the four arguments, the kernel's result array ends at the unflattened specification
    of the flattened `x` and the other arguments, and so does the reference's. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq,
    Cert.ReferenceIdeal.RefValue.result_eq _ _ _ _ Cert.KernelIdeal.Gen.shapeCasts_S4x4096x4096_S16384x4096
      Cert.KernelIdeal.Gen.shapeCasts_S16384x4096_S4x4096x4096,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
